-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S129 : Shape := ⟨1, ![129]⟩
abbrev S101 : Shape := ⟨1, ![101]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S129 : S_.BroadcastsInDim S129 (![] : Fin 0 → Fin S129.rank)
  reducesTo_S129_S_d0 : S129.ReducesTo [0] S_
  bcast_S_S101 : S_.BroadcastsInDim S101 (![] : Fin 0 → Fin S101.rank)
  reducesTo_S101_S_d0 : S101.ReducesTo [0] S_

variable [Facts]

def fn {F : FTy → Type} [FloatOps F] (main_arg0 : FVec F S500000x128 .f32) (main_arg1 : FVec F S129 .f32) (main_arg2 : FVec F S101 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S129 .f32 := Host.absf main_arg1
  let main_cst_0 : FVec F S_ .f32 := constant S_ .f32 0x7F800000#32
  let main_v5 : FVec F S129 .f32 := broadcastInDim S129 ![] bcast_S_S129 main_cst_0
  let main_v6 : IVec S129 1 := cmpf .olt main_v4 main_v5
  let main_c_1 : IVec S_ 1 := constantI S_ 1 1#1
  let main_v7 : IVec S_ 1 := (fun x v => Host.reduce IntOp.andi x v reducesTo_S129_S_d0 h_S_) main_v6 main_c_1
  let main_v8 : IVec S_ 1 := andi main_v3 main_v7
  let main_v9 : FVec F S101 .f32 := Host.absf main_arg2
  let main_cst_2 : FVec F S_ .f32 := constant S_ .f32 0x7F800000#32
  let main_v10 : FVec F S101 .f32 := broadcastInDim S101 ![] bcast_S_S101 main_cst_2
  let main_v11 : IVec S101 1 := cmpf .olt main_v9 main_v10
  let main_c_3 : IVec S_ 1 := constantI S_ 1 1#1
  let main_v12 : IVec S_ 1 := (fun x v => Host.reduce IntOp.andi x v reducesTo_S101_S_d0 h_S_) main_v11 main_c_3
  let main_v13 : IVec S_ 1 := andi main_v8 main_v12
  main_v13
-- ==== Kernel.lean ====
abbrev S500000x128 : Shape := ⟨2, ![500000, 128]⟩
abbrev S129 : Shape := ⟨1, ![129]⟩
abbrev S101 : Shape := ⟨1, ![101]⟩
abbrev S128 : Shape := ⟨1, ![128]⟩
abbrev S_ : Shape := ⟨0, ![]⟩
abbrev S1x128 : Shape := ⟨2, ![1, 128]⟩
abbrev S128x1 : Shape := ⟨2, ![128, 1]⟩
abbrev S100 : Shape := ⟨1, ![100]⟩
abbrev S1x100 : Shape := ⟨2, ![1, 100]⟩
abbrev S128x100 : Shape := ⟨2, ![128, 100]⟩
abbrev S500000x100 : Shape := ⟨2, ![500000, 100]⟩
abbrev S10000x128 : Shape := ⟨2, ![10000, 128]⟩
abbrev S10000x100 : Shape := ⟨2, ![10000, 100]⟩
abbrev S10000 : Shape := ⟨1, ![10000]⟩
abbrev S10000x1 : Shape := ⟨2, ![10000, 1]⟩

abbrev nBuf : Space → Nat
  | .hbm => 31
  | .vmem => 6
  | .smem => 0
  | _ => 0

abbrev bufTy : (tb : Table) → Fin (tcTables nBuf tb) → BufTy
  | .hbm, ⟨0, _⟩ => ⟨S500000x128, .f32⟩
  | .hbm, ⟨1, _⟩ => ⟨S129, .f32⟩
  | .hbm, ⟨2, _⟩ => ⟨S101, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S128, .f32⟩
  | .hbm, ⟨11, _⟩ => ⟨S128x1, .f32⟩
  | .hbm, ⟨12, _⟩ => ⟨S100, .f32⟩
  | .hbm, ⟨13, _⟩ => ⟨S1x100, .f32⟩
  | .hbm, ⟨14, _⟩ => ⟨S128x100, .f32⟩
  | .hbm, ⟨15, _⟩ => ⟨S128x100, .f32⟩
  | .hbm, ⟨16, _⟩ => ⟨S128x100, .f32⟩
  | .hbm, ⟨17, _⟩ => ⟨S128, .f32⟩
  | .hbm, ⟨18, _⟩ => ⟨S128x1, .f32⟩
  | .hbm, ⟨19, _⟩ => ⟨S100, .f32⟩
  | .hbm, ⟨20, _⟩ => ⟨S1x100, .f32⟩
  | .hbm, ⟨21, _⟩ => ⟨S128x100, .f32⟩
  | .hbm, ⟨22, _⟩ => ⟨S128x100, .f32⟩
  | .hbm, ⟨23, _⟩ => ⟨S128x100, .f32⟩
  | .hbm, ⟨24, _⟩ => ⟨S128x100, .f32⟩
  | .hbm, ⟨25, _⟩ => ⟨S_, .f32⟩
  | .hbm, ⟨26, _⟩ => ⟨S_, .f32⟩
  | .hbm, ⟨27, _⟩ => ⟨S128x100, .f32⟩
  | .hbm, ⟨28, _⟩ => ⟨S128x100, .f32⟩
  | .hbm, ⟨29, _⟩ => ⟨S128x100, .bf16⟩
  | .hbm, ⟨30, _⟩ => ⟨S500000x100, .f32⟩
  | .local _ .vmem, ⟨0, _⟩ => ⟨S10000x128, .f32⟩
  | .local _ .vmem, ⟨1, _⟩ => ⟨S10000x128, .f32⟩
  | .local _ .vmem, ⟨2, _⟩ => ⟨S1x128, .f32⟩
  | .local _ .vmem, ⟨3, _⟩ => ⟨S128x100, .bf16⟩
  | .local _ .vmem, ⟨4, _⟩ => ⟨S10000x100, .f32⟩
  | .local _ .vmem, ⟨5, _⟩ => ⟨S10000x100, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x100 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S129_S128_1 : S129.Slices ![1] S128
  slices_S129_S128_0 : S129.Slices ![0] S128
  bcast_S_S128 : S_.BroadcastsInDim S128 (![] : Fin 0 → Fin S128.rank)
  shapeCasts_S128_S1x128 : S128.ShapeCasts S1x128
  bcast_S128_S128x1_0 : S128.BroadcastsInDim S128x1 (![0] : Fin 1 → Fin S128x1.rank)
  slices_S101_S100_1 : S101.Slices ![1] S100
  bcast_S100_S1x100_1 : S100.BroadcastsInDim S1x100 (![1] : Fin 1 → Fin S1x100.rank)
  bcast_S128x1_S128x100_0_1 : S128x1.BroadcastsInDim S128x100 (![0, 1] : Fin 2 → Fin S128x100.rank)
  bcast_S1x100_S128x100_0_1 : S1x100.BroadcastsInDim S128x100 (![0, 1] : Fin 2 → Fin S128x100.rank)
  slices_S101_S100_0 : S101.Slices ![0] S100
  bcast_S_S128x100 : S_.BroadcastsInDim S128x100 (![] : Fin 0 → Fin S128x100.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  reduces_S10000x128_S10000 : S10000x128.Reduces [1] S10000
  shapeCasts_S10000_S10000x1 : S10000.ShapeCasts S10000x1
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x100_S128x100_0_0 : ∀ a, (![0, 0] : Fin 2 → Nat) a + S128x100.size a ≤ S128x100.size a
  h_S128x100 : 0 < S128x100.numel
  shapeCasts_S128x100_S128x100 : S128x100.ShapeCasts S128x100
  inb_S10000x100_S10000x100_0_0 : ∀ a, (![0, 0] : Fin 2 → Nat) a + S10000x100.size a ≤ S10000x100.size a
  h_S10000x100 : 0 < S10000x100.numel
  dot_S10000x128_S128x100_S10000x100_1_0_0_1_n_n_wf : DotDims.WF S10000x128 S128x100 S10000x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x100.size a ≤ S128x100.size a
  hwx0_2 : ∀ i : grid0.Coords, EltTy.bits .bf16 = 32 ∨ (Rect.block (s := S128x100) S128x100.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x100.size a ≤ S500000x100.size a
  hwx0_3 : ∀ i : grid0.Coords, EltTy.bits .f32 = 32 ∨ (Rect.block (s := S500000x100) S10000x100.size (cc0_transform_3 i) (hinb0_3 i)).WholeWords (EltTy.packing .f32)

variable [Facts₀]

def dot_S10000x128_S128x100_S10000x100_1_0_0_1_n_n : DotDims S10000x128 S128x100 S10000x100 where
  lhsContracting := [1]
  rhsContracting := [0]
  lhsNonContracting := [0]
  rhsNonContracting := [1]
  lhsBatch := []
  rhsBatch := []
  wf := dot_S10000x128_S128x100_S10000x100_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S10000x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x128 : Shape := ⟨2, ![500000, 128]⟩
abbrev S129 : Shape := ⟨1, ![129]⟩
abbrev S101 : Shape := ⟨1, ![101]⟩
abbrev S_ : Shape := ⟨0, ![]⟩
abbrev S500000 : Shape := ⟨1, ![500000]⟩
abbrev S500000x1 : Shape := ⟨2, ![500000, 1]⟩
abbrev S128 : Shape := ⟨1, ![128]⟩
abbrev S1x128 : Shape := ⟨2, ![1, 128]⟩
abbrev S128x1 : Shape := ⟨2, ![128, 1]⟩
abbrev S100 : Shape := ⟨1, ![100]⟩
abbrev S1x100 : Shape := ⟨2, ![1, 100]⟩
abbrev S128x100 : Shape := ⟨2, ![128, 100]⟩
abbrev S500000x100 : Shape := ⟨2, ![500000, 100]⟩

abbrev nBuf : Space → Nat
  | .hbm => 47
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S129, .f32⟩
  | .hbm, ⟨2, _⟩ => ⟨S101, .f32⟩
  | .hbm, ⟨3, _⟩ => ⟨S_, .f32⟩
  | .hbm, ⟨4, _⟩ => ⟨S500000, .f32⟩
  | .hbm, ⟨5, _⟩ => ⟨S_, .f32⟩
  | .hbm, ⟨6, _⟩ => ⟨S500000, .f32⟩
  | .hbm, ⟨7, _⟩ => ⟨S500000, .f32⟩
  | .hbm, ⟨8, _⟩ => ⟨S500000x1, .f32⟩
  | .hbm, ⟨9, _⟩ => ⟨S500000x128, .f32⟩
  | .hbm, ⟨10, _⟩ => ⟨S500000x128, .f32⟩
  | .hbm, ⟨11, _⟩ => ⟨S500000x128, .f32⟩
  | .hbm, ⟨12, _⟩ => ⟨S_, .f32⟩
  | .hbm, ⟨13, _⟩ => ⟨S500000, .f32⟩
  | .hbm, ⟨14, _⟩ => ⟨S500000x1, .f32⟩
  | .hbm, ⟨15, _⟩ => ⟨S500000x128, .f32⟩
  | .hbm, ⟨16, _⟩ => ⟨S500000x128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S500000x128, .f32⟩
  | .hbm, ⟨22, _⟩ => ⟨S500000x128, .f32⟩
  | .hbm, ⟨23, _⟩ => ⟨S128, .f32⟩
  | .hbm, ⟨24, _⟩ => ⟨S128x1, .f32⟩
  | .hbm, ⟨25, _⟩ => ⟨S100, .f32⟩
  | .hbm, ⟨26, _⟩ => ⟨S1x100, .f32⟩
  | .hbm, ⟨27, _⟩ => ⟨S128x100, .f32⟩
  | .hbm, ⟨28, _⟩ => ⟨S128x100, .f32⟩
  | .hbm, ⟨29, _⟩ => ⟨S128x100, .f32⟩
  | .hbm, ⟨30, _⟩ => ⟨S128, .f32⟩
  | .hbm, ⟨31, _⟩ => ⟨S128x1, .f32⟩
  | .hbm, ⟨32, _⟩ => ⟨S100, .f32⟩
  | .hbm, ⟨33, _⟩ => ⟨S1x100, .f32⟩
  | .hbm, ⟨34, _⟩ => ⟨S128x100, .f32⟩
  | .hbm, ⟨35, _⟩ => ⟨S128x100, .f32⟩
  | .hbm, ⟨36, _⟩ => ⟨S128x100, .f32⟩
  | .hbm, ⟨37, _⟩ => ⟨S128x100, .f32⟩
  | .hbm, ⟨38, _⟩ => ⟨S_, .f32⟩
  | .hbm, ⟨39, _⟩ => ⟨S_, .f32⟩
  | .hbm, ⟨40, _⟩ => ⟨S128x100, .f32⟩
  | .hbm, ⟨41, _⟩ => ⟨S128x100, .f32⟩
  | .hbm, ⟨42, _⟩ => ⟨S500000x100, .f32⟩
  | .hbm, ⟨43, _⟩ => ⟨S_, .f32⟩
  | .hbm, ⟨44, _⟩ => ⟨S500000x100, .f32⟩
  | .hbm, ⟨45, _⟩ => ⟨S500000x100, .f32⟩
  | .hbm, ⟨46, _⟩ => ⟨S500000x100, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  reducesTo_S500000x128_S500000_d1 : S500000x128.ReducesTo [1] S500000
  h_S_ : 0 < S_.numel
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  slices_S129_S128_1 : S129.Slices ![1] S128
  slices_S129_S128_0 : S129.Slices ![0] S128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S128_S128x1_0 : S128.BroadcastsInDim S128x1 (![0] : Fin 1 → Fin S128x1.rank)
  slices_S101_S100_1 : S101.Slices ![1] S100
  bcast_S100_S1x100_1 : S100.BroadcastsInDim S1x100 (![1] : Fin 1 → Fin S1x100.rank)
  bcast_S128x1_S128x100_0_1 : S128x1.BroadcastsInDim S128x100 (![0, 1] : Fin 2 → Fin S128x100.rank)
  bcast_S1x100_S128x100_0_1 : S1x100.BroadcastsInDim S128x100 (![0, 1] : Fin 2 → Fin S128x100.rank)
  slices_S101_S100_0 : S101.Slices ![0] S100
  bcast_S_S128x100 : S_.BroadcastsInDim S128x100 (![] : Fin 0 → Fin S128x100.rank)
  bcast_S_S500000x100 : S_.BroadcastsInDim S500000x100 (![] : Fin 0 → Fin S500000x100.rank)
  dot_S500000x128_S128x100_S500000x100_1_0_0_1_n_n_wf : DotDims.WF S500000x128 S128x100 S500000x100 [1] [0] [0] [1] [] []

variable [Facts₀]

def dot_S500000x128_S128x100_S500000x100_1_0_0_1_n_n : DotDims S500000x128 S128x100 S500000x100 where
  lhsContracting := [1]
  rhsContracting := [0]
  lhsNonContracting := [0]
  rhsNonContracting := [1]
  lhsBatch := []
  rhsBatch := []
  wf := dot_S500000x128_S128x100_S500000x100_1_0_0_1_n_n_wf

class Facts : Prop extends Facts₀ where

variable [Facts]
-- ==== Proof.Spec.lean ====
/-
  The mathematics of the histogram re-binning, stated once, free of any program.

  A row of 128 logits is turned into probabilities by a softmax (shifted by the row's maximum), each probability is
  divided by the width of its old bin to give a density, the densities are integrated against the 128 × 100 matrix of
  overlap lengths between old and new bins, and the logarithm of the result plus the smallest normal number is taken.

  One program divides a probability by the bin width; the other multiplies it by the reciprocal of the width. On the
  extended reals the two agree at every width — zero and the infinities included — as soon as the probability is
  strictly positive, and a softmax of finite logits is strictly positive. That is the only law this certificate needs.
-/
import Idealize.ShloMosaic.PureOps.Ideal
import Idealize.ShloMosaic.PureOps.Ideal.Laws
import Idealize.ShloMosaic.Lib.ValueIdx

noncomputable section

namespace Cert.Rebin

open Idealize.ShloMosaic

/-! ## A row's softmax -/

/-- The maximum of a row, folded from `-∞`. -/
def rowMax (x : Fin 128 → EReal) : EReal := (Finset.univ : Finset (Fin 128)).fold max ⊥ x

/-- The exponential of an entry shifted by the row's maximum. -/
def expShift (x : Fin 128 → EReal) (k : Fin 128) : EReal := Ideal.exp (x k - rowMax x)

/-- The softmax of a row. -/
def softmax (x : Fin 128 → EReal) (k : Fin 128) : EReal := Ideal.div (expShift x k) (∑ k', expShift x k')

/-- A finite sum of real numbers, read in the extended reals, is the sum read there term by term. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The maximum of a row of finite numbers is finite. -/
theorem rowMax_real (x : Fin 128 → EReal) (hx : ∀ k, ∃ r : ℝ, x k = r) : ∃ M : ℝ, rowMax x = M := by
  have hlt : rowMax x < ⊤ := by
    unfold rowMax
    rw [Finset.fold_max_lt]
    refine ⟨bot_lt_top, fun k _ => ?_⟩
    obtain ⟨r, hr⟩ := hx k
    rw [hr]; exact EReal.coe_lt_top r
  have hgt : ⊥ < rowMax x := by
    obtain ⟨r, hr⟩ := hx 0
    refine lt_of_lt_of_le (EReal.bot_lt_coe r) ?_
    unfold rowMax
    rw [Finset.le_fold_max]
    exact Or.inr ⟨0, Finset.mem_univ _, hr.ge⟩
  exact ⟨(rowMax x).toReal, (EReal.coe_toReal hlt.ne hgt.ne').symm⟩

/-- The softmax of a row of finite numbers is strictly positive at every entry. -/
theorem softmax_pos (x : Fin 128 → EReal) (hx : ∀ k, ∃ r : ℝ, x k = r) (k : Fin 128) : 0 < softmax x k := by
  obtain ⟨M, hM⟩ := rowMax_real x hx
  choose r hr using hx
  have he : ∀ k', expShift x k' = ((Real.exp (r k' - M) : ℝ) : EReal) := fun k' => by
    unfold expShift
    rw [hM, hr k', ← EReal.coe_sub, Ideal.exp_coe]
  have hS : (∑ k', expShift x k') = ((∑ k', Real.exp (r k' - M) : ℝ) : EReal) := by
    rw [coe_sum]; exact Finset.sum_congr rfl fun k' _ => he k'
  have hSpos : 0 < ∑ k', Real.exp (r k' - M) :=
    Finset.sum_pos (fun k' _ => Real.exp_pos _) ⟨0, Finset.mem_univ _⟩
  unfold softmax
  rw [hS, he k, Ideal.div_coe hSpos.ne', ← EReal.coe_mul]
  exact_mod_cast mul_pos (Real.exp_pos _) (one_div_pos.mpr hSpos)

/-! ## Dividing by a width, and multiplying by its reciprocal -/

/-- A strictly positive extended real times the reciprocal of any width is its quotient by the width: off zero both
    are the product with the inverse; at a zero width both are `+∞`. -/
theorem mul_recip_eq_div (p w : EReal) (hp : 0 < p) : p * Ideal.div 1 w = Ideal.div p w := by
  unfold Ideal.div
  by_cases hw : w = 0
  · rw [if_pos hw, if_pos hw, if_pos hp, if_pos (by exact_mod_cast zero_lt_one), EReal.mul_top_of_pos hp]
  · rw [if_neg hw, if_neg hw, one_mul]

/-! ## The bins -/

/-- The width of old bin `k`: the difference of its two edges. -/
def width (oe : Fin 129 → EReal) (k : Fin 128) : EReal := oe k.succ - oe k.castSucc

/-- The length of the intersection of old bin `k` with new bin `j`, clipped at zero. -/
def overlap (oe : Fin 129 → EReal) (ne : Fin 101 → EReal) (k : Fin 128) (j : Fin 100) : EReal :=
  max 0 (min (oe k.succ) (ne j.succ) - max (oe k.castSucc) (ne j.castSucc))

/-- The smallest positive normal single-precision number, as the word both programs add before the logarithm. -/
def tiny : EReal := Ideal.ofBits .f32 0x00800000#32

/-- The re-binned log-density of one row at new bin `j`, the densities being quotients by the widths. -/
def rebinDiv (x : Fin 128 → EReal) (oe : Fin 129 → EReal) (ne : Fin 101 → EReal) (j : Fin 100) : EReal :=
  Ideal.log ((∑ k, Ideal.div (softmax x k) (width oe k) * overlap oe ne k j) + tiny)

/-- The same with the densities written as products with the reciprocal widths. -/
def rebinMul (x : Fin 128 → EReal) (oe : Fin 129 → EReal) (ne : Fin 101 → EReal) (j : Fin 100) : EReal :=
  Ideal.log ((∑ k, (softmax x k * Ideal.div 1 (width oe k)) * overlap oe ne k j) + tiny)

/-- For a row of finite logits the two forms are one number. -/
theorem rebinMul_eq_rebinDiv (x : Fin 128 → EReal) (hx : ∀ k, ∃ r : ℝ, x k = r) (oe : Fin 129 → EReal)
    (ne : Fin 101 → EReal) (j : Fin 100) : rebinMul x oe ne j = rebinDiv x oe ne j := by
  unfold rebinMul rebinDiv
  refine congrArg (fun s => Ideal.log (s + tiny)) (Finset.sum_congr rfl fun k _ => ?_)
  rw [mul_recip_eq_div _ _ (softmax_pos x hx k)]

end Cert.Rebin

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.LibColumn.lean ====
/-
  A column kept by a row reduction, read at an index.

  A row statistic of an a × b array (a maximum, a sum) is a vector of length a; it is recast as an a × 1 column and
  broadcast back over the b lanes. Read at (p, c) the result is the statistic of row p, whatever the lane c.
-/
import Idealize.ShloMosaic.Lib.ValueIdx
import Idealize.ShloMosaic.Lib.ValueLayout
import Idealize.ShloMosaic.Lib.Pipeline.Value

noncomputable section

namespace Idealize.ShloMosaic.ValueIdx

variable {α : Type}

/-- A length-`a` vector recast as an `a × 1` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `a × 1` column broadcast to `a × b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.KernelPay.lean ====
/-
  The kernel body's stored value, read at an entry.

  The body loads a 10000 × 128 block of logits, the 1 × 128 row of reciprocal bin widths and the 128 × 100 overlap
  matrix, and stores the logarithm of (softmax(block) · reciprocal widths) · overlap + tiny. At row p and column q of
  the stored block that is the logarithm of the sum over the 128 old bins k of
  softmax(row p)[k] · recip[k] · overlap[k, q], plus tiny: the row's maximum and the row's sum of exponentials are
  lane reductions kept as a column and broadcast back, the matrix product is a plain contraction along the bins, and
  the changes of float format are the identity on the extended reals.
-/
import proofs.«114123_j67611375173676_2_alg».proof.Proof.Gen.KernelIdeal.Skeleton
import proofs.«114123_j67611375173676_2_alg».proof.Proof.Spec
import proofs.«114123_j67611375173676_2_alg».proof.Proof.LibPlainDot
import proofs.«114123_j67611375173676_2_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.Rebin

/-- Row `p` of a block of logits. -/
abbrev blkRow (v0 : FVec Ideal S10000x128 .f32) (p : Fin 10000) : Fin 128 → EReal := fun k => v0 (ix2 p k)

/-- The word of `-∞` denotes the bottom of the extended reals. -/
theorem ofBits_neg_inf : (FloatOps.ofBits .f32 0xFF800000#32 : Ideal .f32) = ⊥ := by
  show Ideal.ofBits .f32 0xFF800000#32 = ⊥
  simp [Ideal.ofBits, Ideal.ieee]

/-- The index a lane reduction of a 10000 × 128 block inserts at row `p` is `(p, k)`. -/
theorem lift_row (h : S10000x128.Reduces [1] S10000) (p : Fin 10000) (k : Fin 128) :
    h.lift (ix1 p) k = ix2 p k :=
  funext fun a => Fin.ext (by match a with | ⟨0, _⟩ => rfl | ⟨1, _⟩ => rfl)

/-- The lane maximum of a block, at row `p`, is the row's maximum. -/
theorem laneMax_apply (v0 : FVec Ideal S10000x128 .f32) (h : S10000x128.Reduces [1] S10000) (hφ : FKind.Formats .f32)
    (hacc : (0xFF800000#32 : BitVec FTy.f32.bits) = FKind.maximumf.neutral .f32 hφ) (p : Fin 10000) :
    multiReduction .maximumf [1] S10000 v0 0xFF800000#32 h hφ hacc (ix1 p) = rowMax (blkRow v0 p) := by
  refine (Ideal.multiReduction_maximumf_single v0 0xFF800000#32 h hφ hacc (ix1 p)).trans ?_
  rw [ofBits_neg_inf]
  have hf : (v0 ∘ h.lift (ix1 p)) = blkRow v0 p := funext fun k => congrArg v0 (lift_row h p k)
  rw [hf]
  rfl

/-- The lane sum of a block, at row `p`, is the row's sum. -/
theorem laneSum_apply (v : FVec Ideal S10000x128 .f32) (h : S10000x128.Reduces [1] S10000) (hφ : FKind.Formats .f32)
    (hacc : (0x00000000#32 : BitVec FTy.f32.bits) = FKind.add.neutral .f32 hφ) (p : Fin 10000) :
    multiReduction .add [1] S10000 v 0x00000000#32 h hφ hacc (ix1 p) = ∑ k : Fin 128, v (ix2 p k) := by
  refine (Ideal.multiReduction_add_single v 0x00000000#32 h hφ hacc (ix1 p)).trans ?_
  exact Finset.sum_congr rfl fun k _ => congrArg v (lift_row h p k)

/-- A row statistic kept as a column and broadcast over the lanes reads, at `(p, k)`, the statistic of row `p`. -/
theorem keepdims_apply (s : FVec Ideal S10000 .f32) (h₁ : S10000.ShapeCasts S10000x1) (h₂ : S10000x1.Broadcasts S10000x128)
    (p : Fin 10000) (k : Fin 128) :
    broadcastTo S10000x128 (shapeCast S10000x1 s h₁) h₂ (ix2 p k) = s (ix1 p) :=
  (broadcastTo_a1_ab_apply _ h₂ p k).trans (shapeCast_a_a1_apply s h₁ p 0)

/-! ## The softmax of the block -/

/-- The block of exponentials shifted by the row maxima, as the body computes it. -/
def expBlk (v0 : FVec Ideal S10000x128 .f32) : FVec Ideal S10000x128 .f32 :=
  exp (subf v0 (broadcastTo S10000x128 (shapeCast S10000x1
    (multiReduction .maximumf [1] S10000 v0 0xFF800000#32 reduces_S10000x128_S10000 (.inl rfl) rfl)
    shapeCasts_S10000_S10000x1) broadcasts_S10000x1_S10000x128))

theorem expBlk_apply (v0 : FVec Ideal S10000x128 .f32) (p : Fin 10000) (k : Fin 128) :
    expBlk v0 (ix2 p k) = expShift (blkRow v0 p) k := by
  show Ideal.exp (v0 (ix2 p k) - broadcastTo S10000x128 (shapeCast S10000x1
    (multiReduction .maximumf [1] S10000 v0 0xFF800000#32 reduces_S10000x128_S10000 (.inl rfl) rfl)
    shapeCasts_S10000_S10000x1) broadcasts_S10000x1_S10000x128 (ix2 p k)) = Ideal.exp (v0 (ix2 p k) - rowMax (blkRow v0 p))
  refine congrArg (fun s => Ideal.exp (v0 (ix2 p k) - s)) ?_
  exact (keepdims_apply _ _ _ p k).trans (laneMax_apply v0 _ _ _ p)

/-- The block of probabilities, as the body computes it. -/
def probsBlk (v0 : FVec Ideal S10000x128 .f32) : FVec Ideal S10000x128 .f32 :=
  divf (expBlk v0) (broadcastTo S10000x128 (shapeCast S10000x1
    (multiReduction .add [1] S10000 (expBlk v0) 0x00000000#32 reduces_S10000x128_S10000 (.inl rfl) rfl)
    shapeCasts_S10000_S10000x1) broadcasts_S10000x1_S10000x128)

theorem probsBlk_apply (v0 : FVec Ideal S10000x128 .f32) (p : Fin 10000) (k : Fin 128) :
    probsBlk v0 (ix2 p k) = softmax (blkRow v0 p) k := by
  show Ideal.div (expBlk v0 (ix2 p k)) (broadcastTo S10000x128 (shapeCast S10000x1
    (multiReduction .add [1] S10000 (expBlk v0) 0x00000000#32 reduces_S10000x128_S10000 (.inl rfl) rfl)
    shapeCasts_S10000_S10000x1) broadcasts_S10000x1_S10000x128 (ix2 p k))
      = Ideal.div (expShift (blkRow v0 p) k) (∑ k', expShift (blkRow v0 p) k')
  refine congrArg₂ Ideal.div (expBlk_apply v0 p k) ?_
  refine (keepdims_apply _ _ _ p k).trans ((laneSum_apply (expBlk v0) _ _ _ p).trans ?_)
  exact Finset.sum_congr rfl fun k' _ => expBlk_apply v0 p k'

/-! ## The stored value -/

/-- The body's stored block at `(p, q)`. -/
theorem pay_apply (v0 : FVec Ideal S10000x128 .f32) (v10 : FVec Ideal S1x128 .f32) (v15 : FVec Ideal S128x100 .bf16)
    (p : Fin 10000) (q : Fin 100) :
    k0_pay1 (F := Ideal) v0 v10 v15 (ix2 p q)
      = Ideal.log ((∑ k : Fin 128, (softmax (blkRow v0 p) k * v10 (ix2 (0 : Fin 1) k)) * v15 (ix2 k q)) + tiny) := by
  unfold k0_pay1
  show Ideal.log (FloatOps.matmul dot_S10000x128_S128x100_S10000x100_1_0_0_1_n_n none
      (truncf .bf16 (mulf (probsBlk v0) (broadcastTo S10000x128 (shapeCast S1x128 v10 shapeCasts_S1x128_S1x128) broadcasts_S1x128_S10000x128)) bitsLt_bf16_f32)
      (shapeCast S128x100 v15 shapeCasts_S128x100_S128x100) (constant S10000x100 .f32 0x00000000#32) (ix2 p q) + tiny) = _
  refine congrArg (fun s => Ideal.log (s + tiny)) ?_
  refine (PlainDot.matmul_zero_apply dot_S10000x128_S128x100_S10000x100_1_0_0_1_n_n ⟨rfl, rfl, rfl, rfl, rfl, rfl⟩ none _ _ p q).trans ?_
  refine Finset.sum_congr rfl fun k _ => ?_
  refine congrArg₂ (· * ·) ?_ ?_
  · show probsBlk v0 (ix2 p k) * broadcastTo S10000x128 (shapeCast S1x128 v10 shapeCasts_S1x128_S1x128) broadcasts_S1x128_S10000x128 (ix2 p k) = _
    rw [probsBlk_apply, broadcastTo_1b_ab_apply, shapeCast_self]
  · exact congrFun (shapeCast_self v15 shapeCasts_S128x100_S128x100) (ix2 k q)

end Cert.KernelIdeal.Pay

end
-- ==== Proof.LibHostLayout.lean ====
/-
  Host layout operations of small rank, read at an index.

  A vector sliced by one (dropping its first or its last entry), a vector laid out as a column or as a row, a column
  or a row broadcast over a matrix, and a scalar broadcast over anything: each reads its operand at the evident index.
-/
import Idealize.ShloMosaic.Lib.ValueIdx
import Idealize.ShloMosaic.Lib.Pipeline.Value

noncomputable section

namespace Idealize.ShloMosaic.ValueIdx

variable {α : Type}

/-- Dropping the first entry of a vector of `n + 1` entries: entry `k` of the slice is entry `k + 1`. -/
theorem slice_tail_apply {n : ℕ} (x : (⟨1, ![n + 1]⟩ : Shape).Idx → α)
    (h : (⟨1, ![n + 1]⟩ : Shape).Slices ![1] ⟨1, ![n]⟩) (k : Fin n) :
    extractStridedSlice ⟨1, ![n]⟩ ![1] x h (ix1 k) = x (ix1 k.succ) :=
  extractStridedSlice_apply ![1] x h (ix1 k) (ix1 k.succ) (fun a => match a with
    | ⟨0, _⟩ => by show k.val + 1 = 1 + k.val; omega)

/-- Dropping the last entry of a vector of `n + 1` entries: entry `k` of the slice is entry `k`. -/
theorem slice_init_apply {n : ℕ} (x : (⟨1, ![n + 1]⟩ : Shape).Idx → α)
    (h : (⟨1, ![n + 1]⟩ : Shape).Slices ![0] ⟨1, ![n]⟩) (k : Fin n) :
    extractStridedSlice ⟨1, ![n]⟩ ![0] x h (ix1 k) = x (ix1 k.castSucc) :=
  extractStridedSlice_apply ![0] x h (ix1 k) (ix1 k.castSucc) (fun a => match a with
    | ⟨0, _⟩ => by show k.val = 0 + k.val; omega)

/-- A vector laid out as a column. -/
theorem bcast_vec_col_apply {a : ℕ} (y : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h y (ix2 p u) = y (ix1 p) :=
  broadcastInDim_apply _ h y (ix2 p u) (ix1 p) (fun ax => match ax with
    | ⟨0, _⟩ => by
      show p.val = if a = 1 then 0 else p.val
      split
      · have := p.isLt; omega
      · rfl)

/-- A vector laid out as a row. -/
theorem bcast_vec_row_apply {b : ℕ} (y : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h y (ix2 u c) = y (ix1 c) :=
  broadcastInDim_apply _ h y (ix2 u c) (ix1 c) (fun ax => match ax with
    | ⟨0, _⟩ => by
      show c.val = if b = 1 then 0 else c.val
      split
      · have := c.isLt; omega
      · rfl)

/-- A column broadcast over a matrix. -/
theorem bcast_col_apply {a b : ℕ} (y : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h y (ix2 p c) = y (ix2 p (0 : Fin 1)) :=
  broadcastInDim_apply _ h y (ix2 p c) (ix2 p (0 : Fin 1)) (fun ax => match ax with
    | ⟨0, _⟩ => by
      show p.val = if a = 1 then 0 else p.val
      split
      · have := p.isLt; omega
      · rfl
    | ⟨1, _⟩ => by show 0 = if (1 : ℕ) = 1 then 0 else c.val; rw [if_pos rfl])

/-- A row broadcast over a matrix. -/
theorem bcast_row_apply {a b : ℕ} (y : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h y (ix2 p c) = y (ix2 (0 : Fin 1) c) :=
  broadcastInDim_apply _ h y (ix2 p c) (ix2 (0 : Fin 1) c) (fun ax => match ax with
    | ⟨0, _⟩ => by show 0 = if (1 : ℕ) = 1 then 0 else p.val; rw [if_pos rfl]
    | ⟨1, _⟩ => by
      show c.val = if b = 1 then 0 else c.val
      split
      · have := c.isLt; omega
      · rfl)

/-- A scalar broadcast over any shape. -/
theorem bcast_scalar_apply {t : Shape} (y : (⟨0, ![]⟩ : Shape).Idx → α)
    (h : (⟨0, ![]⟩ : Shape).BroadcastsInDim t ![]) (i : t.Idx) :
    broadcastInDim t ![] h y i = y ix0 :=
  broadcastInDim_apply _ h y i ix0 (fun ax => ax.elim0)

end Idealize.ShloMosaic.ValueIdx

end
-- ==== Proof.HostTerms.lean ====
/-
  The host-side terms both programs compute from the two edge grids, read at an index.

  The old bins' widths are the differences of consecutive old edges. The overlap of old bin k with new bin j is the
  smaller of the two right edges minus the larger of the two left edges, clipped below at zero. Both programs spell
  these with the same slices and broadcasts; here each spelling is read back entry by entry.
-/
import proofs.«114123_j67611375173676_2_alg».proof.Proof.Spec
import proofs.«114123_j67611375173676_2_alg».proof.Proof.LibHostLayout
import Idealize.ShloMosaic.PureOps.Ideal.Laws

noncomputable section

namespace Cert.Rebin

open Idealize.ShloMosaic Idealize.ShloMosaic.ValueIdx

abbrev V0 : Shape := ⟨0, ![]⟩
abbrev V129 : Shape := ⟨1, ![129]⟩
abbrev V128 : Shape := ⟨1, ![128]⟩
abbrev V101 : Shape := ⟨1, ![101]⟩
abbrev V100 : Shape := ⟨1, ![100]⟩
abbrev V128x1 : Shape := ⟨2, ![128, 1]⟩
abbrev V1x100 : Shape := ⟨2, ![1, 100]⟩
abbrev V128x100 : Shape := ⟨2, ![128, 100]⟩

/-- An edge grid as a plain sequence. -/
abbrev edges {n : ℕ} (e : (⟨1, ![n]⟩ : Shape).Idx → EReal) : Fin n → EReal := fun k => e (ix1 k)

/-- The word of `-∞` denotes the bottom of the extended reals. -/
theorem ofBits_neg_inf : Ideal.ofBits .f32 0xFF800000#32 = ⊥ := by simp [Ideal.ofBits, Ideal.ieee]

/-- The word of `1.0` denotes one. -/
theorem ofBits_one : Ideal.ofBits .f32 0x3F800000#32 = 1 := IdealRules.sign_bit.ideal_onePat .f32

variable (oe : FVec Ideal V129 .f32) (ne : FVec Ideal V101 .f32)
  (h1 : V129.Slices ![1] V128) (h0 : V129.Slices ![0] V128) (g1 : V101.Slices ![1] V100) (g0 : V101.Slices ![0] V100)
  (hvc : V128.BroadcastsInDim V128x1 ![0]) (hcol : V128x1.BroadcastsInDim V128x100 ![0, 1])
  (hvr : V100.BroadcastsInDim V1x100 ![1]) (hrow : V1x100.BroadcastsInDim V128x100 ![0, 1])
  (hz : V0.BroadcastsInDim V128x100 ![])

/-- The widths, as both programs spell them. -/
def widthTerm : FVec Ideal V128 .f32 :=
  subf (extractStridedSlice V128 ![1] oe h1) (extractStridedSlice V128 ![0] oe h0)

theorem widthTerm_apply (k : Fin 128) : widthTerm oe h1 h0 (ix1 k) = width (edges oe) k := by
  show extractStridedSlice V128 ![1] oe h1 (ix1 k) - extractStridedSlice V128 ![0] oe h0 (ix1 k) = _
  rw [slice_tail_apply, slice_init_apply]
  rfl

/-- The clipped overlap matrix, as both programs spell it. -/
def overlapTerm : FVec Ideal V128x100 .f32 :=
  maximumf (broadcastInDim V128x100 ![] hz (constant V0 .f32 0x00000000#32))
    (subf
      (minimumf
        (broadcastInDim V128x100 ![0, 1] hcol (broadcastInDim V128x1 ![0] hvc (extractStridedSlice V128 ![1] oe h1)))
        (broadcastInDim V128x100 ![0, 1] hrow (broadcastInDim V1x100 ![1] hvr (extractStridedSlice V100 ![1] ne g1))))
      (maximumf
        (broadcastInDim V128x100 ![0, 1] hcol (broadcastInDim V128x1 ![0] hvc (extractStridedSlice V128 ![0] oe h0)))
        (broadcastInDim V128x100 ![0, 1] hrow (broadcastInDim V1x100 ![1] hvr (extractStridedSlice V100 ![0] ne g0)))))

theorem overlapTerm_apply (k : Fin 128) (j : Fin 100) :
    overlapTerm oe ne h1 h0 g1 g0 hvc hcol hvr hrow hz (ix2 k j) = overlap (edges oe) (edges ne) k j := by
  unfold overlapTerm
  simp only [maximumf_apply, minimumf_apply, subf_apply]
  rw [bcast_scalar_apply, bcast_col_apply, bcast_col_apply, bcast_row_apply, bcast_row_apply, bcast_vec_col_apply,
    bcast_vec_col_apply, bcast_vec_row_apply, bcast_vec_row_apply, slice_tail_apply, slice_tail_apply, slice_init_apply,
    slice_init_apply, constant_apply, Ideal.ofBits_zero_f32]
  rfl

/-! ## The whole result array -/

abbrev V500000x128 : Shape := ⟨2, ![500000, 128]⟩
abbrev V500000x100 : Shape := ⟨2, ![500000, 100]⟩

/-- Row `p` of the logits. -/
def logitsRow (x : V500000x128.Idx → EReal) (p : Fin 500000) : Fin 128 → EReal := fun k => x (ix2 p k)

/-- The result array with densities as quotients by the widths: entry `(p, q)` is row `p` re-binned at new bin `q`. -/
def resultDiv (x : V500000x128.Idx → EReal) (oe : V129.Idx → EReal) (ne : V101.Idx → EReal) : V500000x100.Idx → EReal :=
  fun i => rebinDiv (logitsRow x ⟨(i 0).val, (i 0).isLt⟩) (edges oe) (edges ne) ⟨(i 1).val, (i 1).isLt⟩

/-- The result array with densities as products with the reciprocal widths. -/
def resultMul (x : V500000x128.Idx → EReal) (oe : V129.Idx → EReal) (ne : V101.Idx → EReal) : V500000x100.Idx → EReal :=
  fun i => rebinMul (logitsRow x ⟨(i 0).val, (i 0).isLt⟩) (edges oe) (edges ne) ⟨(i 1).val, (i 1).isLt⟩

/-- For finite logits the two arrays are one. -/
theorem resultMul_eq_resultDiv (x : V500000x128.Idx → EReal) (hx : ∀ i, ∃ r : ℝ, x i = r) (oe : V129.Idx → EReal)
    (ne : V101.Idx → EReal) : resultMul x oe ne = resultDiv x oe ne :=
  funext fun i => rebinMul_eq_rebinDiv _ (fun k => hx _) _ _ _

end Cert.Rebin

end
-- ==== Proof.KernelValue.lean ====
/-
  The kernel's result array.

  The grid has 50 points; point t stages rows 10000·t … 10000·t + 9999 of the logits, the whole row of reciprocal
  widths and the whole overlap matrix, and writes back rows 10000·t … 10000·t + 9999 of the result. The reciprocal
  widths and the overlap matrix are computed by the host before the launch from the two edge grids. So the block
  point t writes back is the restriction to those rows of ONE array — row p re-binned, with densities as products
  with the reciprocal widths — and the 50 blocks tile the result.
-/
import proofs.«114123_j67611375173676_2_alg».proof.Proof.Gen.KernelIdeal.Value
import proofs.«114123_j67611375173676_2_alg».proof.Proof.KernelPay
import proofs.«114123_j67611375173676_2_alg».proof.Proof.HostTerms
import Idealize.ShloMosaic.Lib.StableHlo.Run
import Idealize.ShloMosaic.Lib.ValueLayout
import Idealize.ShloMosaic.Lib.Pipeline.Value
import Idealize.ShloMosaic.Lib.Tactic

noncomputable section

namespace Cert.KernelIdeal.Arr

open Cert.KernelIdeal Cert.KernelIdeal.Gen Cert.KernelIdeal.Pay Idealize.ShloMosaic Idealize.ShloMosaic.TcCoe
  Idealize.ShloMosaic.Tactic Idealize.SL.Sem Idealize.ShloMosaic.StableHlo Idealize.ShloMosaic.ValueIdx Cert.Rebin
open Idealize.ShloMosaic.Pipeline (Dat)

variable (m : (ℓ : Loc nD τ sig) → Buf (Elt Ideal) ℓ) (ρ : Dev nD → PrngReg)

/-- The three argument arrays as the launch memory holds them. -/
abbrev argX (c : Dev nD) : FVec Ideal S500000x128 .f32 := m ((c : Thread nD τ).loc main_arg0)
abbrev argOE (c : Dev nD) : FVec Ideal S129 .f32 := m ((c : Thread nD τ).loc main_arg1)
abbrev argNE (c : Dev nD) : FVec Ideal S101 .f32 := m ((c : Thread nD τ).loc main_arg2)

theorem hz : (![0, 0] : Fin 2 → Nat) = fun _ => 0 := funext fun a => by fin_cases a <;> rfl

/-! ## What the host computes before the launch -/

/-- The reciprocal widths: one over the differences of consecutive old edges, laid out as a row. -/
theorem V_recip (c : Dev nD) : (V m c main_v5 : S1x128.Idx → EReal)
    = shapeCast S1x128 (Host.divf (F := Ideal) (broadcastInDim S128 ![] bcast_S_S128 (constant (F := Ideal) S_ .f32 0x3F800000#32))
        (widthTerm (argOE m c) slices_S129_S128_1 slices_S129_S128_0)) shapeCasts_S128_S1x128 := by
  dsimp only [V]
  simp only [hostOps0, hostOps0_1, hostOps0_2, List.flatten_cons, List.flatten_nil, List.append_nil, List.cons_append,
    List.nil_append]
  after_results
  rfl

theorem recip_apply (c : Dev nD) (k : Fin 128) :
    (V m c main_v5 : S1x128.Idx → EReal) (ix2 (0 : Fin 1) k) = Ideal.div 1 (width (edges (argOE m c)) k) := by
  rw [V_recip, shapeCast_a_1a_apply]
  show Ideal.div (broadcastInDim S128 ![] bcast_S_S128 (constant (F := Ideal) S_ .f32 0x3F800000#32) (ix1 k))
    (widthTerm (argOE m c) slices_S129_S128_1 slices_S129_S128_0 (ix1 k)) = _
  rw [bcast_scalar_apply, widthTerm_apply, constant_apply, ofBits_one]

/-- The overlap matrix (its change of float format is the identity on the extended reals). -/
theorem V_overlap (c : Dev nD) : (V m c main_v22 : S128x100.Idx → EReal)
    = truncf .bf16 (overlapTerm (argOE m c) (argNE m c) slices_S129_S128_1 slices_S129_S128_0 slices_S101_S100_1
        slices_S101_S100_0 bcast_S128_S128x1_0 bcast_S128x1_S128x100_0_1 bcast_S100_S1x100_1 bcast_S1x100_S128x100_0_1
        bcast_S_S128x100) bitsLt_bf16_f32 := by
  dsimp only [V]
  simp only [hostOps0, hostOps0_1, hostOps0_2, List.flatten_cons, List.flatten_nil, List.append_nil, List.cons_append,
    List.nil_append]
  after_results
  rfl

theorem overlap_apply (c : Dev nD) (k : Fin 128) (q : Fin 100) :
    (V m c main_v22 : S128x100.Idx → EReal) (ix2 k q) = overlap (edges (argOE m c)) (edges (argNE m c)) k q := by
  rw [V_overlap]
  exact overlapTerm_apply _ _ _ _ _ _ _ _ _ _ _ k q

/-! ## The windows' blocks -/

/-- The index maps, decided over the grid: the logits and the result move down by one block of rows per point; the
    reciprocal widths and the overlap matrix stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 50 := by
  have h := t.isLt
  have hN : cfg0.N = 50 := N_0
  omega

/-- The logits' block at point `t` is rows `10000 t …` of the argument. -/
theorem blk0_apply (c : Dev nD) (t : Fin cfg0.N) (y : S10000x128.Idx) (i : S500000x128.Idx)
    (h0 : (i 0).val = 10000 * t.val + (y 0).val) (h1 : (i 1).val = (y 1).val) :
    (iblk m c 0 t : Vec Ideal S10000x128 .f32) y = argX m c i := by
  obtain ⟨e0, e1, -⟩ := idx_facts t
  unfold iblk
  rw [View.read_apply]
  show V m c main_arg0 _ = _
  rw [V_main_arg0 m c]
  show argX m c _ = argX m c i
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The reciprocal widths' block at any point is the whole row. -/
theorem blk1_apply (c : Dev nD) (t : Fin cfg0.N) (y : S1x128.Idx) :
    (iblk m c 1 t : Vec Ideal S1x128 .f32) y = (V m c main_v5 : S1x128.Idx → EReal) y := by
  obtain ⟨-, -, e0, e1, -⟩ := idx_facts t
  unfold iblk
  rw [View.read_apply]
  show (V m c main_v5 : S1x128.Idx → EReal) _ = _
  congr 1
  funext a
  apply Fin.ext
  match a with
  | ⟨0, _⟩ => show win0_1.index t (0 : Fin 2) * 1 + 1 * (y 0).val = (y 0).val; rw [e0]; omega
  | ⟨1, _⟩ => show win0_1.index t (1 : Fin 2) * 128 + 1 * (y 1).val = (y 1).val; rw [e1]; omega

/-- The overlap matrix's block at any point is the whole matrix. -/
theorem blk2_apply (c : Dev nD) (t : Fin cfg0.N) (y : S128x100.Idx) :
    (iblk m c 2 t : Vec Ideal S128x100 .bf16) y = (V m c main_v22 : S128x100.Idx → EReal) y := by
  obtain ⟨-, -, -, -, e0, e1, -⟩ := idx_facts t
  unfold iblk
  rw [View.read_apply]
  show (V m c main_v22 : S128x100.Idx → EReal) _ = _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 100 + 1 * (y 1).val = (y 1).val; rw [e1]; omega

/-- Where entry `(p, q)` of the result's block at point `t` lies in the result array. -/
theorem emb3 (t : Fin cfg0.N) (p : Fin 10000) (q : Fin 100) :
    ∃ P : Fin 500000, P.val = 10000 * t.val + p.val
      ∧ (((cfg0.win 3).blk t).view.emb (ix2 p q : S10000x100.Idx) : S500000x100.Idx) = ix2 P q := by
  obtain ⟨-, -, -, -, -, -, e0, e1⟩ := idx_facts t
  have ht := point_lt t
  refine ⟨⟨10000 * t.val + p.val, by have := p.isLt; omega⟩, rfl, ?_⟩
  funext a
  apply Fin.ext
  match a with
  | ⟨0, _⟩ => show win0_3.index t (0 : Fin 2) * 10000 + 1 * p.val = 10000 * t.val + p.val; rw [e0]; omega
  | ⟨1, _⟩ => show win0_3.index t (1 : Fin 2) * 100 + 1 * q.val = q.val; rw [e1]; omega

/-! ## The result array -/

/-- The array the kernel's result ends holding. -/
abbrev kernelResult (c : Dev nD) : FVec Ideal S500000x100 .f32 := resultMul (argX m c) (argOE m c) (argNE m c)

/-- What point `t` writes back is block `t` of that array. -/
theorem flushed_eq (c : Dev nD) (t : Fin cfg0.N) :
    (dats m 0 c).flushed 3 t = ((cfg0.win 3).blk t).view.read (Elt Ideal) (kernelResult m c) := by
  rw [Cert.KernelIdeal.Value.flushed3]
  unfold out0_3
  rw [View.canon_unit_zero hz]
  simp only [View.ld_unit_zero (S := S10000x128) hz, View.ld_unit_zero (S := S1x128) hz, View.ld_unit_zero (S := S128x100) hz]
  funext y
  obtain ⟨p, q, rfl⟩ : ∃ (p : Fin 10000) (q : Fin 100), y = (ix2 p q : S10000x100.Idx) := ⟨y 0, y 1, eq_ix2 y⟩
  obtain ⟨P, hP, hemb⟩ := emb3 t p q
  rw [View.read_apply, hemb]
  show k0_pay1 (F := Ideal) (iblk m c 0 t) (iblk m c 1 t) (iblk m c 2 t) (ix2 p q)
    = rebinMul (logitsRow (argX m c) P) (edges (argOE m c)) (edges (argNE m c)) q
  refine (pay_apply (iblk m c 0 t) (iblk m c 1 t) (iblk m c 2 t) p q).trans ?_
  unfold rebinMul
  have hrow : blkRow (iblk m c 0 t) p = logitsRow (argX m c) P :=
    funext fun k => blk0_apply m c t (ix2 p k) (ix2 P k) hP rfl
  refine congrArg (fun s => Ideal.log (s + tiny)) (Finset.sum_congr rfl fun k _ => ?_)
  rw [hrow, blk1_apply, blk2_apply, recip_apply, overlap_apply]

/-- Every entry of the result lies in some point's block: row `r` in the block of point `r / 10000`. -/
theorem cover (i : S500000x100.Idx) :
    ∃ t : Fin cfg0.N, (cfg0.win 3).flush t = true ∧ i ∈ ((cfg0.win 3).blk t).view.set := by
  have hi0 : (i 0).val < 500000 := (i 0).isLt
  have hi1 : (i 1).val < 100 := (i 1).isLt
  have hN : cfg0.N = 50 := N_0
  let t : Fin cfg0.N := ⟨(i 0).val / 10000, by rw [hN]; omega⟩
  obtain ⟨-, -, -, -, -, -, e0, e1⟩ := idx_facts t
  have ht : t.val = (i 0).val / 10000 := rfl
  refine ⟨t, flush0_3 t, ?_⟩
  show i ∈ ((View.whole main_v23).slice (win0_3.rect t)).set
  rw [View.set_slice_whole, Rect.mem_set_unit]
  intro a
  match a with
  | ⟨0, _⟩ =>
    show win0_3.index t (0 : Fin 2) * 10000 ≤ (i 0).val ∧ (i 0).val < win0_3.index t (0 : Fin 2) * 10000 + 10000
    rw [e0, ht]; omega
  | ⟨1, _⟩ =>
    show win0_3.index t (1 : Fin 2) * 100 ≤ (i 1).val ∧ (i 1).val < win0_3.index t (1 : Fin 2) * 100 + 100
    rw [e1]; omega

/-- So the result array ends holding it. -/
theorem final (c : Dev nD) : (dats m 0 c).arrAt 3 cfg0.N = kernelResult m c :=
  (dats m 0 c).arrAt_eq_of_cover 3 (kernelResult m c) (fun t _ => flushed_eq m c t) (cover)

/-- The kernel's run: the result array at the re-binned log-densities, the arguments unchanged. -/
theorem run : θ_run defs (onTc (τ := τ) (main (F := Ideal))) ⟨m, fun _ => 0, ρ⟩ fun r => ∀ c : Dev nD,
      r.2.mem ((c : Thread nD τ).loc main_v23) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Arr

end
-- ==== Proof.RefValue.lean ====
/-
  The reference's result, entry by entry.

  The reference takes the softmax of each row of logits (subtracting the row's maximum, exponentiating, dividing by
  the row's sum), divides by the old bins' widths, contracts with the overlap matrix along the old bins, adds the
  smallest normal number and takes the logarithm. Read stage by stage at an entry (p, q) this is the re-binned
  log-density of row p at new bin q, with densities as quotients by the widths.
-/
import proofs.«114123_j67611375173676_2_alg».proof.Proof.Gen.ReferenceIdeal.Read
import proofs.«114123_j67611375173676_2_alg».proof.Proof.HostTerms
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
  Cert.Rebin

variable (x0 : FVec Ideal S500000x128 .f32) (x1 : FVec Ideal S129 .f32) (x2 : FVec Ideal S101 .f32)

/-- The reduction over the lanes of the logits, as a fact about shapes. -/
theorem hred : S500000x128.Reduces [1] S500000 := by decide

/-- The index the reduction inserts at row `p` is `(p, k)`. -/
theorem lift_row (p : Fin 500000) (k : Fin 128) : hred.lift (ix1 p) k = ix2 p k :=
  funext fun a => Fin.ext (by match a with | ⟨0, _⟩ => rfl | ⟨1, _⟩ => rfl)

/-! ## The softmax -/

/-- The row maximum (the reference takes it once more against `-∞`, which changes nothing). -/
theorem max_ref (p : Fin 500000) : val_main_v2 (F := Ideal) x0 (ix1 p) = rowMax (logitsRow x0 p) := by
  have h0 : val_main_v0 (F := Ideal) x0 (ix1 p) = rowMax (logitsRow x0 p) := by
    unfold val_main_v0
    refine (Host.reduce_eq_fold_single (FloatOps.maximumf (F := Ideal) (φ := .f32)) x0 (val_main_cst (F := Ideal))
      reducesTo_S500000x128_S500000_d1 hred h_S_ (ix1 p)).trans ?_
    have hb : val_main_cst (F := Ideal) (Shape.Idx.first h_S_) = ⊥ := ofBits_neg_inf
    have hf : (x0 ∘ hred.lift (ix1 p)) = logitsRow x0 p := funext fun k => congrArg x0 (lift_row p k)
    rw [hb, hf]
    rfl
  rw [val_main_v2_apply, h0, val_main_v1_apply, val_main_cst_0_apply]
  show max (Ideal.ofBits .f32 0xFF800000#32) _ = _
  rw [ofBits_neg_inf]
  exact max_eq_right bot_le

/-- The shifted exponential. -/
theorem exp_ref (p : Fin 500000) (k : Fin 128) :
    val_main_v6 (F := Ideal) x0 (ix2 p k) = expShift (logitsRow x0 p) k := by
  have hi : idx_main_v3 (idx_main_v4 (ix2 p k)) = ix1 p :=
    funext fun a => Fin.ext (by match a with | ⟨0, _⟩ => rfl)
  have h4 : val_main_v4 (F := Ideal) x0 (ix2 p k) = rowMax (logitsRow x0 p) := by
    rw [val_main_v4_apply, val_main_v3_apply]
    exact (congrArg (val_main_v2 (F := Ideal) x0) hi).trans (max_ref x0 p)
  rw [val_main_v6_apply, val_main_v5_apply, h4]
  rfl

/-- The row's sum of shifted exponentials. -/
theorem sum_ref (p : Fin 500000) : val_main_v7 (F := Ideal) x0 (ix1 p) = ∑ k, expShift (logitsRow x0 p) k := by
  rw [val_main_v7_apply, val_main_cst_1_apply]
  show Ideal.ofBits .f32 0x00000000#32 + _ = _
  rw [Ideal.ofBits_zero_f32, zero_add]
  refine Finset.sum_congr rfl fun k _ => ?_
  have hi : idx_main_v7 (ix1 p) k = ix2 p k :=
    funext fun a => Fin.ext (by match a with | ⟨0, _⟩ => rfl | ⟨1, _⟩ => rfl)
  exact (congrArg (val_main_v6 (F := Ideal) x0) hi).trans (exp_ref x0 p k)

/-- The probabilities. -/
theorem probs_ref (p : Fin 500000) (k : Fin 128) :
    val_main_v10 (F := Ideal) x0 (ix2 p k) = softmax (logitsRow x0 p) k := by
  have hi : idx_main_v8 (idx_main_v9 (ix2 p k)) = ix1 p :=
    funext fun a => Fin.ext (by match a with | ⟨0, _⟩ => rfl)
  have h9 : val_main_v9 (F := Ideal) x0 (ix2 p k) = ∑ k', expShift (logitsRow x0 p) k' := by
    rw [val_main_v9_apply, val_main_v8_apply]
    exact (congrArg (val_main_v7 (F := Ideal) x0) hi).trans (sum_ref x0 p)
  rw [val_main_v10_apply, exp_ref, h9]
  rfl

/-! ## The densities and the overlap -/

/-- The widths broadcast over the rows. -/
theorem width_ref (p : Fin 500000) (k : Fin 128) :
    val_main_v15 (F := Ideal) x1 (ix2 p k) = width (edges x1) k := by
  show broadcastInDim S500000x128 ![0, 1] bcast_S1x128_S500000x128_0_1
    (broadcastInDim S1x128 ![1] bcast_S128_S1x128_1 (widthTerm x1 slices_S129_S128_1 slices_S129_S128_0)) (ix2 p k) = _
  rw [bcast_row_apply, bcast_vec_row_apply, widthTerm_apply]

/-- The densities: probabilities divided by the widths. -/
theorem dens_ref (p : Fin 500000) (k : Fin 128) :
    val_main_v16 (F := Ideal) x0 x1 (ix2 p k) = Ideal.div (softmax (logitsRow x0 p) k) (width (edges x1) k) := by
  rw [val_main_v16_apply, probs_ref, width_ref]
  rfl

/-- The overlap matrix. -/
theorem overlap_ref (k : Fin 128) (j : Fin 100) :
    val_main_v32 (F := Ideal) x1 x2 (ix2 k j) = overlap (edges x1) (edges x2) k j :=
  overlapTerm_apply x1 x2 slices_S129_S128_1 slices_S129_S128_0 slices_S101_S100_1 slices_S101_S100_0
    bcast_S128_S128x1_0 bcast_S128x1_S128x100_0_1 bcast_S100_S1x100_1 bcast_S1x100_S128x100_0_1 bcast_S_S128x100 k j

/-! ## The result -/

/-- The reference's result array is the re-binned log-density, densities as quotients. -/
theorem result_ref : val_main_v36 (F := Ideal) x0 x1 x2 = resultDiv x0 x1 x2 := by
  funext i
  obtain ⟨p, q, rfl⟩ : ∃ (p : Fin 500000) (q : Fin 100), i = ix2 p q := ⟨i 0, i 1, eq_ix2 i⟩
  rw [val_main_v36_apply, val_main_v35_apply, val_main_v33_apply, val_main_v34_apply, val_main_cst_3_apply]
  show Ideal.log (_ + tiny) = rebinDiv (logitsRow x0 p) (edges x1) (edges x2) q
  unfold rebinDiv
  refine congrArg (fun s => Ideal.log (s + tiny)) (Finset.sum_congr rfl fun k _ => ?_)
  have hl : lidx_main_v33 (ix2 p q) k = ix2 p k :=
    funext fun a => Fin.ext (by match a with | ⟨0, _⟩ => rfl | ⟨1, _⟩ => rfl)
  have hr : ridx_main_v33 (ix2 p q) k = ix2 k q :=
    funext fun a => Fin.ext (by match a with | ⟨0, _⟩ => rfl | ⟨1, _⟩ => rfl)
  rw [hl, hr, dens_ref, overlap_ref]

end Cert.ReferenceIdeal.RefValue

end
-- ==== Proof.Finite.lean ====
/-
  Finiteness of the logits, read out of the precondition.

  The precondition is the conjunction of three "every entry has absolute value below +∞" tests, one per input. Only
  the first is used: every logit is a real number, which is what makes a row's softmax strictly positive.
-/
import proofs.«114123_j67611375173676_2_alg».proof.Pre_finite_inputs
import Idealize.ShloMosaic.Lib.ReduceAll
import Idealize.ShloMosaic.Lib.ValueIdx
import Idealize.ShloMosaic.PureOps.Ideal.Laws

noncomputable section

namespace Cert.Rebin

open Idealize.ShloMosaic

/-- The rank-0 shape has one index. -/
instance : Subsingleton Cert.Pre_finite_inputs.S_.Idx := ⟨fun a b => funext fun d => d.elim0⟩

/-- An extended real whose absolute value compares strictly below the word of `+∞` is a real number. -/
theorem real_of_abs_lt_inf (x : EReal)
    (h : Ideal.cmp .olt (max x (-x)) (Ideal.ofBits .f32 0x7F800000#32) = 1#1) : ∃ r : ℝ, x = r := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

/-- Under the precondition every logit is a real number. -/
theorem logits_real [Cert.Pre_finite_inputs.Facts] (x : FVec Ideal Cert.Pre_finite_inputs.S500000x128 .f32)
    (oe : FVec Ideal Cert.Pre_finite_inputs.S129 .f32) (ne : FVec Ideal Cert.Pre_finite_inputs.S101 .f32)
    (h : Cert.Pre_finite_inputs.fn (F := Ideal) x oe ne = fun _ => 1#1) (i : Cert.Pre_finite_inputs.S500000x128.Idx) :
    ∃ r : ℝ, x i = r := by
  have h0 := congrFun h ValueIdx.ix0
  dsimp only [Cert.Pre_finite_inputs.fn] at h0
  obtain ⟨h1, _⟩ := IntOp.andi_eq_one.1 h0
  obtain ⟨h2, _⟩ := IntOp.andi_eq_one.1 h1
  exact real_of_abs_lt_inf _ (Host.reduce_andi_all _ _ _ _ _ h2 i)

end Cert.Rebin

end
-- ==== Proof.lean ====
/-
  Histogram re-binning: a Pallas kernel against its jnp reference, equal over the extended reals.

  Both programs take logits x : [500000, 128] and two edge grids (129 old edges, 101 new edges). Each row of x is
  turned into probabilities by a softmax; each probability becomes a density over its old bin; the densities are
  integrated against the 128 × 100 matrix of overlap lengths between old and new bins; the result is
  log(· + tiny). The kernel does this 10000 rows at a time over a grid of 50 points, with the reciprocal widths and
  the overlap matrix computed on the host before the launch; the reference does it in one piece.

  The two differ in three ways, none of which changes the value on the extended reals.
  · Roundings (the kernel feeds its matrix unit bfloat16 operands) are the identity there.
  · The reference takes the row maximum once more against -∞.
  · The kernel multiplies a probability by 1 / width where the reference divides it by the width. The two agree at
    every width, zero and infinite ones included, as soon as the probability is strictly positive — and the softmax of
    a row of FINITE logits is strictly positive. This is where the precondition is used.

  Proof/Spec.lean states the row-level mathematics and proves that law; Proof/HostTerms.lean reads the widths and
  the overlap matrix, which both programs spell alike, entry by entry; Proof/KernelPay.lean reads the kernel body's
  stored block at an entry and Proof/KernelValue.lean assembles the 50 blocks into the kernel's result array;
  Proof/RefValue.lean reads the reference's result at an entry; Proof/Finite.lean extracts the finiteness of the logits
  from the precondition. Here the five claims are put together.
-/
import proofs.«114123_j67611375173676_2_alg».proof.Defs
import proofs.«114123_j67611375173676_2_alg».proof.Proof.Gen.Kernel
import proofs.«114123_j67611375173676_2_alg».proof.Proof.Gen.Kernel.Skeleton
import proofs.«114123_j67611375173676_2_alg».proof.Proof.Gen.Kernel.Launch
import proofs.«114123_j67611375173676_2_alg».proof.Proof.Gen.Kernel.Points
import proofs.«114123_j67611375173676_2_alg».proof.Proof.Gen.Kernel.Frame
import proofs.«114123_j67611375173676_2_alg».proof.Proof.Gen.KernelIdeal
import proofs.«114123_j67611375173676_2_alg».proof.Proof.Gen.KernelIdeal.Skeleton
import proofs.«114123_j67611375173676_2_alg».proof.Proof.Gen.KernelIdeal.Launch
import proofs.«114123_j67611375173676_2_alg».proof.Proof.Gen.KernelIdeal.Points
import proofs.«114123_j67611375173676_2_alg».proof.Proof.Gen.KernelIdeal.Frame
import proofs.«114123_j67611375173676_2_alg».proof.Proof.Gen.ReferenceIdeal
import proofs.«114123_j67611375173676_2_alg».proof.Proof.Gen.Pre_finite_inputs
import proofs.«114123_j67611375173676_2_alg».proof.Proof.Gen.KernelIdeal.Value
import proofs.«114123_j67611375173676_2_alg».proof.Proof.Gen.ReferenceIdeal.Run
import proofs.«114123_j67611375173676_2_alg».proof.Proof.Gen.ReferenceIdeal.Read
import proofs.«114123_j67611375173676_2_alg».proof.Proof.KernelValue
import proofs.«114123_j67611375173676_2_alg».proof.Proof.RefValue
import proofs.«114123_j67611375173676_2_alg».proof.Proof.Finite
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs, and writes none of its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories that agree on the three arguments, the kernel's result array is row-by-row the re-binned
    log-density with densities as products with the reciprocal widths, the reference's the same with densities as
    quotients by the widths; the logits being finite, the two arrays are one. -/
theorem algebraic : Cert.algebraic_KernelIdeal_ReferenceIdeal := by
  intro m ρ m' ρ' hpre hagree
  refine ⟨fun c => Cert.KernelIdeal.Arr.kernelResult m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.result_ref, (hagree c).1, (hagree c).2.1,
    (hagree c).2.2]
  exact (Cert.Rebin.resultMul_eq_resultDiv _ (fun i => Cert.Rebin.logits_real _ _ _ (hpre c) i) _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
